-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S800000 .f32) (main_arg2 : FVec F S256x128 .f32) (main_arg3 : FVec F S128x128 .f32) (main_arg4 : FVec F S128 .f32) (main_arg5 : IVec S800000x2 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S800000x1 : Shape := ⟨2, ![800000, 1]⟩
abbrev S50000 : Shape := ⟨1, ![50000]⟩
abbrev S850000 : Shape := ⟨1, ![850000]⟩
abbrev S_ : Shape := ⟨0, ![]⟩
abbrev S850000x1 : Shape := ⟨2, ![850000, 1]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S850000x128 : Shape := ⟨2, ![850000, 128]⟩
abbrev S851968x128 : Shape := ⟨2, ![851968, 128]⟩
abbrev S8192x128 : Shape := ⟨2, ![8192, 128]⟩
abbrev S851968x1 : Shape := ⟨2, ![851968, 1]⟩
abbrev S8192x1 : Shape := ⟨2, ![8192, 1]⟩
abbrev S1x128 : Shape := ⟨2, ![1, 128]⟩

abbrev nBuf : Space → Nat
  | .hbm => 124
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S256x128, .f32⟩
  | .hbm, ⟨3, _⟩ => ⟨S128x128, .f32⟩
  | .hbm, ⟨4, _⟩ => ⟨S128, .f32⟩
  | .hbm, ⟨5, _⟩ => ⟨S800000x2, .i32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000, .f32⟩
  | .hbm, ⟨50, _⟩ => ⟨S850000, .f32⟩
  | .hbm, ⟨51, _⟩ => ⟨S128x128, .f32⟩
  | .hbm, ⟨52, _⟩ => ⟨S128x128, .f32⟩
  | .hbm, ⟨53, _⟩ => ⟨S128x256, .f32⟩
  | .hbm, ⟨54, _⟩ => ⟨S50000x256, .f32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S_, .i32⟩
  | .hbm, ⟨85, _⟩ => ⟨S_, .f32⟩
  | .hbm, ⟨86, _⟩ => ⟨S851968x128, .f32⟩
  | .hbm, ⟨87, _⟩ => ⟨S_, .i32⟩
  | .hbm, ⟨88, _⟩ => ⟨S_, .f32⟩
  | .hbm, ⟨89, _⟩ => ⟨S851968x128, .f32⟩
  | .hbm, ⟨90, _⟩ => ⟨S_, .i32⟩
  | .hbm, ⟨91, _⟩ => ⟨S_, .f32⟩
  | .hbm, ⟨92, _⟩ => ⟨S851968x128, .f32⟩
  | .hbm, ⟨93, _⟩ => ⟨S851968x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S50000x128, .f32⟩
  | .hbm, ⟨100, _⟩ => ⟨S_, .i32⟩
  | .hbm, ⟨101, _⟩ => ⟨S850000, .i32⟩
  | .hbm, ⟨102, _⟩ => ⟨S850000, .i1⟩
  | .hbm, ⟨103, _⟩ => ⟨S_, .i32⟩
  | .hbm, ⟨104, _⟩ => ⟨S850000, .i32⟩
  | .hbm, ⟨105, _⟩ => ⟨S850000, .i32⟩
  | .hbm, ⟨106, _⟩ => ⟨S850000, .i32⟩
  | .hbm, ⟨107, _⟩ => ⟨S850000x1, .i32⟩
  | .hbm, ⟨108, _⟩ => ⟨S850000x128, .f32⟩
  | .hbm, ⟨109, _⟩ => ⟨S850000x1, .f32⟩
  | .hbm, ⟨110, _⟩ => ⟨S_, .i32⟩
  | .hbm, ⟨111, _⟩ => ⟨S_, .f32⟩
  | .hbm, ⟨112, _⟩ => ⟨S851968x1, .f32⟩
  | .hbm, ⟨113, _⟩ => ⟨S_, .i32⟩
  | .hbm, ⟨114, _⟩ => ⟨S_, .f32⟩
  | .hbm, ⟨115, _⟩ => ⟨S851968x128, .f32⟩
  | .hbm, ⟨116, _⟩ => ⟨S851968x128, .f32⟩
  | .hbm, ⟨117, _⟩ => ⟨S850000x128, .f32⟩
  | .hbm, ⟨118, _⟩ => ⟨S_, .f32⟩
  | .hbm, ⟨119, _⟩ => ⟨S50000x128, .f32⟩
  | .hbm, ⟨120, _⟩ => ⟨S850000x1, .i32⟩
  | .hbm, ⟨121, _⟩ => ⟨S50000x128, .f32⟩
  | .hbm, ⟨122, _⟩ => ⟨S128x128, .f32⟩
  | .hbm, ⟨123, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S8192x1, .f32⟩
  | .local _ .vmem, ⟨14, _⟩ => ⟨S8192x1, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_c_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_11 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_call0_v0 : Ref sig .tc := ⟨.hbm, 85, rfl⟩
abbrev main_v63 : Ref sig .tc := ⟨.hbm, 86, rfl⟩
abbrev main_c_14 : Ref sig .tc := ⟨.hbm, 87, rfl⟩
abbrev main_call1_v0 : Ref sig .tc := ⟨.hbm, 88, rfl⟩
abbrev main_v64 : Ref sig .tc := ⟨.hbm, 89, rfl⟩
abbrev main_c_15 : Ref sig .tc := ⟨.hbm, 90, rfl⟩
abbrev main_call2_v0 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_17 : Ref sig .tc := ⟨.hbm, 100, rfl⟩
abbrev main_v72 : Ref sig .tc := ⟨.hbm, 101, rfl⟩
abbrev main_v73 : Ref sig .tc := ⟨.hbm, 102, rfl⟩
abbrev main_c_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_19 : Ref sig .tc := ⟨.hbm, 110, rfl⟩
abbrev main_call3_v0 : Ref sig .tc := ⟨.hbm, 111, rfl⟩
abbrev main_v80 : Ref sig .tc := ⟨.hbm, 112, rfl⟩
abbrev main_c_20 : Ref sig .tc := ⟨.hbm, 113, rfl⟩
abbrev main_call4_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![104], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![104], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  bcast_S_S50000 : S_.BroadcastsInDim S50000 (![] : Fin 0 → Fin S50000.rank)
  bcast_S800000_S800000x1_0 : S800000.BroadcastsInDim S800000x1 (![0] : Fin 1 → Fin S800000x1.rank)
  bcast_S_S850000 : S_.BroadcastsInDim S850000 (![] : Fin 0 → Fin S850000.rank)
  bcast_S850000_S850000x1_0 : S850000.BroadcastsInDim S850000x1 (![0] : Fin 1 → Fin S850000x1.rank)
  slices_S256x128_S128x128_0_0 : S256x128.Slices ![0, 0] S128x128
  slices_S256x128_S128x128_128_0 : S256x128.Slices ![128, 0] S128x128
  concatenates_S128x128_S128x128_S128x256_d1 : Shape.Concatenates [S128x128, S128x128] S128x256 1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  pads_S850000x128_S851968x128_019680_000 : S850000x128.Pads (![0, 0] : Fin 2 → Nat) ![1968, 0] ![0, 0] S851968x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S851968x128_S850000x128_0_0 : S851968x128.Slices ![0, 0] S850000x128
  bcast_S_S50000x128 : S_.BroadcastsInDim S50000x128 (![] : Fin 0 → Fin S50000x128.rank)
  pads_S850000x1_S851968x1_019680_000 : S850000x1.Pads (![0, 0] : Fin 2 → Nat) ![1968, 0] ![0, 0] S851968x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  transposes_S128x128_S128x128_1_0 : S128x128.Transposes [1, 0] S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S851968x128.size a
  hwx1_0 : ∀ i : grid1.Coords, EltTy.bits .f32 = 32 ∨ (Rect.block (s := S851968x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S851968x128.size a
  hwx1_1 : ∀ i : grid1.Coords, EltTy.bits .f32 = 32 ∨ (Rect.block (s := S851968x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S851968x128.size a
  hwx1_2 : ∀ i : grid1.Coords, EltTy.bits .f32 = 32 ∨ (Rect.block (s := S851968x128) S8192x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S851968x128.size a
  hwx1_3 : ∀ i : grid1.Coords, EltTy.bits .f32 = 32 ∨ (Rect.block (s := S851968x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S851968x1.size a
  hwx2_0 : ∀ i : grid2.Coords, EltTy.bits .f32 = 32 ∨ (Rect.block (s := S851968x1) S8192x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S851968x128.size a
  hwx2_1 : ∀ i : grid2.Coords, EltTy.bits .f32 = 32 ∨ (Rect.block (s := S851968x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x128.size a ≤ S851968x128.size a
  hwx2_2 : ∀ i : grid2.Coords, EltTy.bits .f32 = 32 ∨ (Rect.block (s := S851968x128) S8192x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v63) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S8192x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v65) S8192x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v66) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v80) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S8192x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v86) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128x128 : Shape := ⟨2, ![128, 128]⟩
abbrev S128 : Shape := ⟨1, ![128]⟩
abbrev S800000x2 : Shape := ⟨2, ![800000, 2]⟩
abbrev S800000x1 : Shape := ⟨2, ![800000, 1]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .f32⟩
  | .hbm, ⟨2, _⟩ => ⟨S256x128, .f32⟩
  | .hbm, ⟨3, _⟩ => ⟨S128x128, .f32⟩
  | .hbm, ⟨4, _⟩ => ⟨S128, .f32⟩
  | .hbm, ⟨5, _⟩ => ⟨S800000x2, .i32⟩
  | .hbm, ⟨6, _⟩ => ⟨S800000x1, .i32⟩
  | .hbm, ⟨7, _⟩ => ⟨S800000, .i32⟩
  | .hbm, ⟨8, _⟩ => ⟨S800000x1, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S850000, .f32⟩
  | .hbm, ⟨50, _⟩ => ⟨S850000, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S50000x128, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000x128, .f32⟩
  | .hbm, ⟨73, _⟩ => ⟨S850000x128, .f32⟩
  | .hbm, ⟨74, _⟩ => ⟨S850000x128, .f32⟩
  | .hbm, ⟨75, _⟩ => ⟨S850000x128, .f32⟩
  | .hbm, ⟨76, _⟩ => ⟨S_, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S850000x128, .f32⟩
  | .hbm, ⟨81, _⟩ => ⟨S850000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x128, .f32⟩
  | .hbm, ⟨92, _⟩ => ⟨S_, .f32⟩
  | .hbm, ⟨93, _⟩ => ⟨S50000x128, .f32⟩
  | .hbm, ⟨94, _⟩ => ⟨S850000x1, .i32⟩
  | .hbm, ⟨95, _⟩ => ⟨S50000x128, .f32⟩
  | .hbm, ⟨96, _⟩ => ⟨S50000x128, .f32⟩
  | .hbm, ⟨97, _⟩ => ⟨S850000x1, .f32⟩
  | .hbm, ⟨98, _⟩ => ⟨S_, .i32⟩
  | .hbm, ⟨99, _⟩ => ⟨S850000, .i32⟩
  | .hbm, ⟨100, _⟩ => ⟨S850000, .i1⟩
  | .hbm, ⟨101, _⟩ => ⟨S_, .i32⟩
  | .hbm, ⟨102, _⟩ => ⟨S850000, .i32⟩
  | .hbm, ⟨103, _⟩ => ⟨S850000, .i32⟩
  | .hbm, ⟨104, _⟩ => ⟨S850000, .i32⟩
  | .hbm, ⟨105, _⟩ => ⟨S850000x1, .i32⟩
  | .hbm, ⟨106, _⟩ => ⟨S850000x128, .f32⟩
  | .hbm, ⟨107, _⟩ => ⟨S850000x128, .f32⟩
  | .hbm, ⟨108, _⟩ => ⟨S850000x128, .f32⟩
  | .hbm, ⟨109, _⟩ => ⟨S_, .f32⟩
  | .hbm, ⟨110, _⟩ => ⟨S50000x128, .f32⟩
  | .hbm, ⟨111, _⟩ => ⟨S850000x1, .i32⟩
  | .hbm, ⟨112, _⟩ => ⟨S50000x128, .f32⟩
  | .hbm, ⟨113, _⟩ => ⟨S128x128, .f32⟩
  | .hbm, ⟨114, _⟩ => ⟨S50000x128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_c_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_cst_12 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_16 : Ref sig .tc := ⟨.hbm, 98, rfl⟩
abbrev main_v74 : Ref sig .tc := ⟨.hbm, 99, rfl⟩
abbrev main_v75 : Ref sig .tc := ⟨.hbm, 100, rfl⟩
abbrev main_c_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call0_cst : Ref sig .tc := ⟨.hbm, 118, rfl⟩
abbrev main_call0_v0 : Ref sig .tc := ⟨.hbm, 119, rfl⟩
abbrev main_v91 : Ref sig .tc := ⟨.hbm, 120, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  slices_S800000x2_S800000x1_0_1 : S800000x2.Slices ![0, 1] S800000x1
  concatenates_S800000_S50000_S850000_d0 : Shape.Concatenates [S800000, S50000] S850000 0
  bcast_S_S50000 : S_.BroadcastsInDim S50000 (![] : Fin 0 → Fin S50000.rank)
  bcast_S800000_S800000x1_0 : S800000.BroadcastsInDim S800000x1 (![0] : Fin 1 → Fin S800000x1.rank)
  bcast_S_S850000 : S_.BroadcastsInDim S850000 (![] : Fin 0 → Fin S850000.rank)
  bcast_S850000_S850000x1_0 : S850000.BroadcastsInDim S850000x1 (![0] : Fin 1 → Fin S850000x1.rank)
  slices_S256x128_S128x128_0_0 : S256x128.Slices ![0, 0] S128x128
  slices_S256x128_S128x128_128_0 : S256x128.Slices ![128, 0] S128x128
  bcast_S_S850000x128 : S_.BroadcastsInDim S850000x128 (![] : Fin 0 → Fin S850000x128.rank)
  bcast_S_S50000x128 : S_.BroadcastsInDim S50000x128 (![] : Fin 0 → Fin S50000x128.rank)
  bcast_S850000x1_S850000x128_0_1 : S850000x1.BroadcastsInDim S850000x128 (![0, 1] : Fin 2 → Fin S850000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Region0.lean ====
/-
  The first kernel: the product of the node features with the joined weight matrix [wa | wb], over ten row blocks of
  5000 nodes. Over the extended reals a block product into a zero accumulator is the plain sum over the 128 contracted
  positions, a change of float format is the identity, and the ten blocks fill the 50000 × 256 result with the product of
  the whole arrays. Its two column halves are x · wa and x · wb: entry by entry the same sums the reference's two products are.
-/
import proofs.«121581_j16372415332361_1_alg».proof.Proof.Gen.KernelIdeal.Frame
import proofs.«121581_j16372415332361_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.KernelIdeal.Region0

variable (V : (c : Dev nD) → (b : Ref sig .tc) → Buf (Elt Ideal) ((c : Thread nD τ).loc b))

open ValueIdx in
/-- The projection as one function of the two whole arrays: entry (r, j) is the sum over the 128 contracted
    positions k of a(r, k) · w(k, j). -/
def prodArr (a : S50000x128.Idx → EReal) (w : S128x256.Idx → EReal) : S50000x256.Idx → EReal :=
  fun i => ∑ k : Fin 128, a (ix2 ⟨(i 0).val, (i 0).isLt⟩ k) * w (ix2 k ⟨(i 1).val, (i 1).isLt⟩)

theorem zero_offsets : (![0, 0] : Fin 2 → Nat) = fun _ => 0 := funext fun a => by fin_cases a <;> rfl

/-! ## The block product's operand indices, axis by axis -/

theorem lhs_blockdot_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_blockdot_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_blockdot_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_blockdot_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

open ValueIdx in
/-- The body's payload at an entry of the block: the row of the x block against the column of the weight. -/
theorem payload_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  simp only [shapeCast_self, matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p q) ((contrEquiv1 dot_S5000x128_S128x256_S5000x256_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x256_S5000x256_1_0_0_1_n_n.rhsIdx (ix2 p q) ((contrEquiv1 dot_S5000x128_S128x256_S5000x256_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [ValueIdx.truncf_apply, ValueIdx.truncf_apply, el, er]

/-! ## The index maps over the grid, and what a point writes back -/

/-- The printed index maps over the ten grid points: the x window and the output window sit at row block t,
    column block 0; the weight window always at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

open ValueIdx in
/-- Row p of point t's x block against column q of its weight block is row 5000 t + p of the whole x against
    column q of the whole weight: the entry of the product where the output block's entry (p, q) sits. -/
theorem block_sum (A : S50000x128.Idx → EReal) (W : S128x256.Idx → EReal) (t : Fin cfg0.N) (p : Fin 5000) (q : Fin 256) :
    ∑ k : Fin 128, A (((cfg0.win 0).blk t).view.emb (ix2 p k)) * W (((cfg0.win 1).blk t).view.emb (ix2 k q))
      = prodArr A W (((cfg0.win 2).blk t).view.emb (ix2 p q)) := by
  obtain ⟨e0, e1, e2, e3, e4, e5⟩ := index_facts t
  unfold prodArr
  refine Finset.sum_congr rfl fun k _ => ?_
  congr 1
  · refine congrArg _ (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = win0_2.index t (1 : Fin 2) * 256 + 1 * q.val; omega

open ValueIdx in
/-- Point t writes back rows 5000 t … 5000 t + 4999 of the product of the two whole arrays. -/
theorem flushed_eq (c : Dev nD) (t : Fin cfg0.N) :
    (dat0 V c).flushed 2 t = ((cfg0.win 2).blk t).view.read (Elt Ideal) (prodArr (V c main_arg0) (V c main_v38)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x256) zero_offsets]
  funext j
  obtain ⟨p, q, rfl⟩ : ∃ (p : Fin 5000) (q : Fin 256), j = ix2 p q := ⟨j 0, j 1, eq_ix2 j⟩
  refine (payload_apply (iblk0 V c 0 t) (iblk0 V c 1 t) p q).trans ?_
  exact block_sum (V c main_arg0) (V c main_v38) t p q

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v39).slice (win0_2.rect t)).set ↔ _
  rw [View.set_slice_whole, Rect.mem_set_unit]
  exact Iff.rfl

/-- Every index of the output array lies in the block of the point numbered by its row divided by 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  refine ⟨⟨(i 0).val / 5000, by show (i 0).val / 5000 < 10; omega⟩, flush0_2 _, ?_⟩
  rw [mem_blk]
  obtain ⟨e0, e1, e2, e3, e4, e5⟩ := index_facts ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 256 ≤ (i 1).val ∧ (i 1).val < win0_2.index _ (1 : Fin 2) * 256 + 256
    rw [e5]; omega

/-- The output array after the ten points is the product of the two whole arrays. -/
theorem array_eq (c : Dev nD) : (dat0 V c).arrAt 2 cfg0.N = prodArr (V c main_arg0) (V c main_v38) :=
  (dat0 V c).arrAt_eq_of_cover 2 (prodArr (V c main_arg0) (V c main_v38)) (fun t _ => flushed_eq V c t) cover

/-! ## The reference's product at an entry -/

theorem lhs_refdot_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhs_refdot_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhs_refdot_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhs_refdot_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

open ValueIdx in
/-- The reference's product at entry (p, q): the sum over k of a(p, k) · w(k, q). -/
theorem refdot_apply (a : FVec Ideal S50000x128 .f32) (w : FVec Ideal S128x128 .f32) (p : Fin 50000) (q : Fin 128) :
    Host.dotGeneral Cert.ReferenceIdeal.dot_S50000x128_S128x128_S50000x128_1_0_0_1_n_n none a w (ix2 p q)
      = ∑ k : Fin 128, a (ix2 p k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k) = ix2 p k := funext fun b => Fin.ext (by
    match b with
    | ⟨0, _⟩ => exact lhs_refdot_0 _ _
    | ⟨1, _⟩ => exact (lhs_refdot_1 _ _).trans hk)
  have er : Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k) = ix2 k q := funext fun b => Fin.ext (by
    match b with
    | ⟨0, _⟩ => exact (rhs_refdot_0 _ _).trans hk
    | ⟨1, _⟩ => exact rhs_refdot_1 _ _)
  rw [el, er]

/-! ## The two column halves of the product with the concatenated weight -/

open ValueIdx in
/-- Columns 0 … 127 of the product with [wa | wb] are the product with wa. -/
theorem left_half (a : FVec Ideal S50000x128 .f32) (wa wb : FVec Ideal S128x128 .f32) :
    extractStridedSlice S50000x128 ![0, 0]
        (prodArr a (concatenate S128x256 1 [⟨S128x128, wa⟩, ⟨S128x128, wb⟩] concatenates_S128x128_S128x128_S128x256_d1))
        slices_S50000x256_S50000x128_0_0
      = Host.dotGeneral Cert.ReferenceIdeal.dot_S50000x128_S128x128_S50000x128_1_0_0_1_n_n none a wa := by
  funext i
  obtain ⟨p, q, rfl⟩ : ∃ (p : Fin 50000) (q : Fin 128), i = ix2 p q := ⟨i 0, i 1, eq_ix2 i⟩
  rw [refdot_apply]
  refine (slice2_axis1_eq 0 _ _ p q).trans ?_
  unfold prodArr
  refine Finset.sum_congr rfl fun k _ => ?_
  have hw : concatenate S128x256 1 [⟨S128x128, wa⟩, ⟨S128x128, wb⟩] concatenates_S128x128_S128x128_S128x256_d1
      (ix2 k ⟨0 + q.val, by have := q.isLt; omega⟩) = wa (ix2 k q) := by
    refine concatenate_pair_apply_left 1 wa wb concatenates_S128x128_S128x128_S128x256_d1 _ rfl (ix2 k q) ?_
    intro b
    match b with
    | ⟨0, _⟩ => rfl
    | ⟨1, _⟩ => show q.val = 0 + q.val; omega
  exact congrArg (a (ix2 p k) * ·) hw

open ValueIdx in
/-- Columns 128 … 255 of the product with [wa | wb] are the product with wb. -/
theorem right_half (a : FVec Ideal S50000x128 .f32) (wa wb : FVec Ideal S128x128 .f32) :
    extractStridedSlice S50000x128 ![0, 128]
        (prodArr a (concatenate S128x256 1 [⟨S128x128, wa⟩, ⟨S128x128, wb⟩] concatenates_S128x128_S128x128_S128x256_d1))
        slices_S50000x256_S50000x128_0_128
      = Host.dotGeneral Cert.ReferenceIdeal.dot_S50000x128_S128x128_S50000x128_1_0_0_1_n_n none a wb := by
  funext i
  obtain ⟨p, q, rfl⟩ : ∃ (p : Fin 50000) (q : Fin 128), i = ix2 p q := ⟨i 0, i 1, eq_ix2 i⟩
  rw [refdot_apply]
  refine (slice2_axis1_eq 128 _ _ p q).trans ?_
  unfold prodArr
  refine Finset.sum_congr rfl fun k _ => ?_
  have hw : concatenate S128x256 1 [⟨S128x128, wa⟩, ⟨S128x128, wb⟩] concatenates_S128x128_S128x128_S128x256_d1
      (ix2 k ⟨128 + q.val, by have := q.isLt; omega⟩) = wb (ix2 k q) := by
    refine concatenate_pair_apply_right 1 wa wb concatenates_S128x128_S128x128_S128x256_d1 _ rfl rfl (ix2 k q) ?_ ?_
    · intro b
      match b with
      | ⟨0, _⟩ => exact fun _ => rfl
      | ⟨1, _⟩ => exact fun h => absurd rfl h
    · show q.val + 128 = 128 + q.val; omega
  exact congrArg (a (ix2 p k) * ·) hw

theorem region0_value (c : Dev nD) (x : FVec Ideal S50000x128 .f32) (wa wb : FVec Ideal S128x128 .f32)
    (h0 : (V c main_arg0 : S50000x128.Idx → EReal) = x)
    (h38 : (V c main_v38 : S128x256.Idx → EReal) = concatenate S128x256 1 [⟨S128x128, wa⟩, ⟨S128x128, wb⟩] concatenates_S128x128_S128x128_S128x256_d1) :
    extractStridedSlice S50000x128 ![0, 0] ((dat0 V c).arrAt 2 cfg0.N) slices_S50000x256_S50000x128_0_0
        = Host.dotGeneral Cert.ReferenceIdeal.dot_S50000x128_S128x128_S50000x128_1_0_0_1_n_n none x wa
      ∧ extractStridedSlice S50000x128 ![0, 128] ((dat0 V c).arrAt 2 cfg0.N) slices_S50000x256_S50000x128_0_128
        = Host.dotGeneral Cert.ReferenceIdeal.dot_S50000x128_S128x128_S50000x128_1_0_0_1_n_n none x wb := by
  rw [array_eq, h0, h38]
  exact ⟨left_half x wa wb, right_half x wa wb⟩

end Cert.KernelIdeal.Region0

end
-- ==== Proof.Region1.lean ====
/-
  The second kernel: gate · neighbour features, sigmoid(a + b) · d, over 104 row blocks of 8192 edge-slots of arrays padded
  from 850000 to 851968 rows. The body is pointwise, every window moves with the grid point, and the blocks fill the
  padded result; on the true rows a padded operand reads the unpadded array, and the kernel's sigmoid is the reference's
  1 / (1 + exp(−s)) on the extended reals. So the true rows are the reference's gated message.
-/
import proofs.«121581_j16372415332361_1_alg».proof.Proof.Gen.KernelIdeal.Frame
import proofs.«121581_j16372415332361_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.IdealHost

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.KernelIdeal.Region1

variable (V : (c : Dev nD) → (b : Ref sig .tc) → Buf (Elt Ideal) ((c : Thread nD τ).loc b))

/-- The zero offset of a whole-block rectangle, as a constant function. -/
theorem zero_offset : (![0, 0] : Fin 2 → Nat) = fun _ => 0 := funext fun a => by fin_cases a <;> rfl

/-- The gated product of three arrays, index by index: the logistic of the sum of the first two, times the third. -/
abbrev gated (x y w : S851968x128.Idx → Elt Ideal .f32) : S851968x128.Idx → Elt Ideal .f32 :=
  fun i => FloatOps.mulf (F := Ideal) (φ := .f32) (FloatOps.logistic (FloatOps.addf (x i) (y i))) (w i)

/-- The body's payload on three loaded blocks: a reshape between equal shapes is the identity, so what remains
    is the logistic of the sum of the first two blocks times the third. -/
theorem payload_eq (x0 x1 x2 : Vec Ideal S8192x128 .f32) :
    k1_pay1 x0 x1 x2 = mulf (logistic (addf x0 x1)) x2 := by
  unfold k1_pay1
  simp only [shapeCast_self]

/-- The body stores once, through the whole-block rectangle at offset zero, and loads each input block whole:
    the output buffer ends holding the payload of the three input blocks. -/
theorem body_out (x0 x1 x2 : Vec Ideal S8192x128 .f32) :
    out1_3 x0 x1 x2 = k1_pay1 x0 x1 x2 := by
  unfold out1_3
  rw [View.canon_unit_zero zero_offset]
  simp only [View.ld_unit_zero (S := S8192x128) zero_offset]

/-- The printed index maps over the 104 grid points: every window's block at point `t` is row-block `t`,
    column-block `0`. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What grid point `t` writes back is block `t` of the gated product of the three entry arrays: the four windows
    have the same block index, so an element of the output block and the input elements it is computed from sit at
    the same array index (block index × block size + the coordinate inside the block, on each axis). -/

theorem written_block (c : Dev nD) (t : Fin cfg1.N) :
    (dat1 V c).flushed 3 t
      = ((cfg1.win 3).blk t).view.read (Elt Ideal) (gated (V c main_v63) (V c main_v64) (V c main_v65)) := by
  show (cfg1.win 3).cut (grid1.coords t) ((dat1 V c).after 3 t) = _
  rw [after1_3, body_out, payload_eq]
  obtain ⟨e00, e01, e10, e11, e20, e21, e30, e31⟩ := block_index t
  funext j
  show FloatOps.mulf (F := Ideal) (φ := .f32) (FloatOps.logistic (FloatOps.addf (V c main_v63 (((cfg1.win 0).blk t).view.emb j)) (V c main_v64 (((cfg1.win 1).blk t).view.emb j))))
        (V c main_v65 (((cfg1.win 2).blk t).view.emb j))
      = FloatOps.mulf (F := Ideal) (φ := .f32) (FloatOps.logistic (FloatOps.addf (V c main_v63 (((cfg1.win 3).blk t).view.emb j)) (V c main_v64 (((cfg1.win 3).blk t).view.emb j))))
        (V c main_v65 (((cfg1.win 3).blk t).view.emb j))
  have h0 : ((cfg1.win 0).blk t).view.emb j = ((cfg1.win 3).blk t).view.emb j := by
    funext a; apply Fin.ext
    match a with
    | ⟨0, _⟩ => show win1_0.index t (0 : Fin 2) * 8192 + 1 * (j 0).val = win1_3.index t (0 : Fin 2) * 8192 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 8192 + 1 * (j 0).val = win1_3.index t (0 : Fin 2) * 8192 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 8192 + 1 * (j 0).val = win1_3.index t (0 : Fin 2) * 8192 + 1 * (j 0).val; omega
    | ⟨1, _⟩ => show win1_2.index t (1 : Fin 2) * 128 + 1 * (j 1).val = win1_3.index t (1 : Fin 2) * 128 + 1 * (j 1).val; omega
  rw [h0, h1, h2]

/-- An index of the output array lies in point `t`'s block iff each coordinate is in the block's range on its axis. -/
theorem mem_block (t : Fin cfg1.N) (i : S851968x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v66).slice (win1_3.rect t)).set ↔ _
  rw [View.set_slice_whole, Rect.mem_set_unit]
  exact Iff.rfl

/-- Every index of the output array is in the block of the point numbered by its row divided by 8192
    (104 · 8192 = 851968 rows; one column-block of 128). -/
theorem covered (i : S851968x128.Idx) :
    ∃ t : Fin cfg1.N, (cfg1.win 3).flush t = true ∧ i ∈ ((cfg1.win 3).blk t).view.set := by
  have hi0 : (i 0).val < 851968 := (i 0).isLt
  have hi1 : (i 1).val < 128 := (i 1).isLt
  have hN : cfg1.N = 104 := N_1
  obtain ⟨t, ht⟩ : ∃ t : Fin cfg1.N, t.val = (i 0).val / 8192 := ⟨⟨(i 0).val / 8192, by rw [hN]; omega⟩, rfl⟩
  obtain ⟨e00, e01, e10, e11, e20, e21, e30, e31⟩ := block_index t
  refine ⟨t, flush1_3 t, ?_⟩
  rw [mem_block]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 128 ≤ (i 1).val ∧ (i 1).val < win1_3.index t (1 : Fin 2) * 128 + 128; omega

/-- The output array after the region is the gated product of the three entry arrays, at every index. -/
theorem output_array (c : Dev nD) :
    (dat1 V c).arrAt 3 cfg1.N = gated (V c main_v63) (V c main_v64) (V c main_v65) :=
  (dat1 V c).arrAt_eq_of_cover 3 _ (fun t _ => written_block V c t) covered

/-- The first 850000 rows of the region's output: there the three padded operands read the unpadded arrays
    (low padding 0, no interior padding), the logistic of `s` is `1 / (1 + exp (-s))`, and the broadcast scalar
    constant is the extended real 1; so the slice is the reference's spelled-out logistic gate of `a + b`, times `d`. -/
theorem region1_value (c : Dev nD) (a b d : FVec Ideal S850000x128 .f32) (z : FVec Ideal S_ .f32)
    (h63 : (V c main_v63 : S851968x128.Idx → EReal) = pad S851968x128 ![0, 0] ![1968, 0] ![0, 0] a z pads_S850000x128_S851968x128_019680_000 h_S_)
    (h64 : (V c main_v64 : S851968x128.Idx → EReal) = pad S851968x128 ![0, 0] ![1968, 0] ![0, 0] b z pads_S850000x128_S851968x128_019680_000 h_S_)
    (h65 : (V c main_v65 : S851968x128.Idx → EReal) = pad S851968x128 ![0, 0] ![1968, 0] ![0, 0] d z pads_S850000x128_S851968x128_019680_000 h_S_) :
    extractStridedSlice S850000x128 ![0, 0] ((dat1 V c).arrAt 3 cfg1.N) slices_S851968x128_S850000x128_0_0
      = mulf (Host.divf (broadcastInDim S850000x128 ![] Cert.ReferenceIdeal.Gen.bcast_S_S850000x128 (constant (F := Ideal) S_ .f32 0x3F800000#32))
          (addf (broadcastInDim S850000x128 ![] Cert.ReferenceIdeal.Gen.bcast_S_S850000x128 (constant (F := Ideal) S_ .f32 0x3F800000#32)) (Host.exp (Host.negf (addf a b))))) d := by
  rw [output_array, h63, h64, h65]
  funext i
  obtain ⟨p, q, rfl⟩ : ∃ (p : Fin 850000) (q : Fin 128), i = ValueIdx.ix2 p q := ⟨i 0, i 1, ValueIdx.eq_ix2 i⟩
  rw [ValueIdx.slice2_axis0_eq]
  have inside : ∀ x : FVec Ideal S850000x128 .f32,
      pad S851968x128 ![0, 0] ![1968, 0] ![0, 0] x z pads_S850000x128_S851968x128_019680_000 h_S_
          (ValueIdx.ix2 ⟨0 + p.val, by omega⟩ q) = x (ValueIdx.ix2 p q) := fun x =>
    pad_apply_of_inside _ _ _ _ _ _ _ _ _ (fun a => by
      match a with
      | ⟨0, _⟩ => show 0 + p.val = 0 + p.val * (0 + 1); omega
      | ⟨1, _⟩ => show q.val = 0 + q.val * (0 + 1); omega)
  show FloatOps.mulf (F := Ideal) (φ := .f32) (FloatOps.logistic (FloatOps.addf
        (pad S851968x128 ![0, 0] ![1968, 0] ![0, 0] a z pads_S850000x128_S851968x128_019680_000 h_S_ (ValueIdx.ix2 ⟨0 + p.val, by omega⟩ q))
        (pad S851968x128 ![0, 0] ![1968, 0] ![0, 0] b z pads_S850000x128_S851968x128_019680_000 h_S_ (ValueIdx.ix2 ⟨0 + p.val, by omega⟩ q))))
        (pad S851968x128 ![0, 0] ![1968, 0] ![0, 0] d z pads_S850000x128_S851968x128_019680_000 h_S_ (ValueIdx.ix2 ⟨0 + p.val, by omega⟩ q)) = _
  rw [inside a, inside b, inside d]
  have one : broadcastInDim S850000x128 ![] Cert.ReferenceIdeal.Gen.bcast_S_S850000x128
      (constant (F := Ideal) S_ .f32 0x3F800000#32) (ValueIdx.ix2 p q) = (1 : EReal) := by
    rw [ValueIdx.broadcastInDim_scalar_apply, ValueIdx.constant_apply, Ideal.ofBits_one_f32]
  show _ = Ideal.div
      (broadcastInDim S850000x128 ![] Cert.ReferenceIdeal.Gen.bcast_S_S850000x128 (constant (F := Ideal) S_ .f32 0x3F800000#32) (ValueIdx.ix2 p q))
      (broadcastInDim S850000x128 ![] Cert.ReferenceIdeal.Gen.bcast_S_S850000x128 (constant (F := Ideal) S_ .f32 0x3F800000#32) (ValueIdx.ix2 p q)
        + Ideal.exp (-(a (ValueIdx.ix2 p q) + b (ValueIdx.ix2 p q)))) * d (ValueIdx.ix2 p q)
  rw [one]
  rfl

end Cert.KernelIdeal.Region1

end
-- ==== Proof.BoundaryA.lean ====
/-
  The kernel program's buffers, read at the boundaries of its first two kernels, at the extended reals.
  Host operations between kernels are read back one stretch at a time; each value the later stages need is
  identified with the reference's own stage of the same arguments (the stages `val_main_v…` of the reference's
  read-back): the concatenated source and destination indices (self loops appended), the normalised edge weights,
  the two projections x·wa and x·wb as the column halves of the first kernel's one product, the three row gathers
  padded to whole blocks, and the gated message as the true rows of the second kernel's result.
-/
import proofs.«121581_j16372415332361_1_alg».proof.Proof.Gen.KernelIdeal.Frame
import proofs.«121581_j16372415332361_1_alg».proof.Proof.Gen.ReferenceIdeal.Read
import proofs.«121581_j16372415332361_1_alg».proof.Proof.Region0
import proofs.«121581_j16372415332361_1_alg».proof.Proof.Region1
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo
open Idealize.ShloMosaic.Pipeline (Dat Cfg Window)
open Cert.KernelIdeal Cert.KernelIdeal.Gen

namespace Cert.KernelIdeal.Bridge
open Cert.ReferenceIdeal.Read

variable (m : (ℓ : Loc nD τ sig) → Buf (Elt Ideal) ℓ) (ρ : Dev nD → PrngReg) (c : Dev nD)

abbrev a0 : S50000x128.Idx → EReal := m ((c : Thread nD τ).loc main_arg0)
abbrev a1 : S800000.Idx → EReal := m ((c : Thread nD τ).loc main_arg1)
abbrev a2 : S256x128.Idx → EReal := m ((c : Thread nD τ).loc main_arg2)
abbrev a3 : S128x128.Idx → EReal := m ((c : Thread nD τ).loc main_arg3)
abbrev a4 : S128.Idx → EReal := m ((c : Thread nD τ).loc main_arg4)
abbrev a5 : S800000x2.Idx → BitVec 32 := m ((c : Thread nD τ).loc main_arg5)
/-- The padding value of every row pad: the integer zero converted to a float. -/
abbrev zpad : S_.Idx → EReal := sitofp (F := Ideal) .f32 (constantI S_ 32 0#32)

/-! ## Before the first kernel: the index vectors, the normalised edge weights, the joined weight matrix -/

theorem w1_arg0 : W1 m ρ c (Proc.devRef .tc main_arg0) = (a0 m c) := by
  show StableHlo.after hostOps0 (W0 m ρ c) (Proc.devRef .tc main_arg0) = _
  after_results_simp <;> rfl
theorem w1_arg3 : W1 m ρ c (Proc.devRef .tc main_arg3) = (a3 m c) := by
  show StableHlo.after hostOps0 (W0 m ρ c) (Proc.devRef .tc main_arg3) = _
  after_results_simp <;> rfl
theorem w1_arg4 : W1 m ρ c (Proc.devRef .tc main_arg4) = (a4 m c) := by
  show StableHlo.after hostOps0 (W0 m ρ c) (Proc.devRef .tc main_arg4) = _
  after_results_simp <;> rfl
theorem w1_v5 : W1 m ρ c (Proc.devRef .tc main_v5) = val_main_v5 (F := Ideal) (a5 m c) := by
  show StableHlo.after hostOps0 (W0 m ρ c) (Proc.devRef .tc main_v5) = _
  after_results_simp <;> rfl
theorem w1_v6 : W1 m ρ c (Proc.devRef .tc main_v6) = val_main_v6 (F := Ideal) (a5 m c) := by
  show StableHlo.after hostOps0 (W0 m ρ c) (Proc.devRef .tc main_v6) = _
  after_results_simp <;> rfl
theorem w1_v35 : W1 m ρ c (Proc.devRef .tc main_v35) = val_main_v35 (F := Ideal) (a1 m c) (a5 m c) := by
  show StableHlo.after hostOps0 (W0 m ρ c) (Proc.devRef .tc main_v35) = _
  after_results_simp <;> rfl
theorem w1_v38 : W1 m ρ c (Proc.devRef .tc main_v38) =
    concatenate S128x256 1 [⟨S128x128, val_main_v36 (F := Ideal) (a2 m c)⟩, ⟨S128x128, val_main_v37 (F := Ideal) (a2 m c)⟩] concatenates_S128x128_S128x128_S128x256_d1 := by
  show StableHlo.after hostOps0 (W0 m ρ c) (Proc.devRef .tc main_v38) = _
  after_results_simp <;> rfl

/-! ## Across the first kernel -/

theorem w2_arg0 : W2 m ρ c (Proc.devRef .tc main_arg0) = (a0 m c) :=
  ((W2_arr m ρ c 0).trans (((dat0 (V1 m ρ) c).arrAt_in 0 rfl _).trans (A_eq0 (V1 m ρ) c 0))).trans (w1_arg0 m ρ c)
theorem w2_arg3 : W2 m ρ c (Proc.devRef .tc main_arg3) = (a3 m c) := (W2_of_ne m ρ c main_arg3 (by decide)).trans (w1_arg3 m ρ c)
theorem w2_arg4 : W2 m ρ c (Proc.devRef .tc main_arg4) = (a4 m c) := (W2_of_ne m ρ c main_arg4 (by decide)).trans (w1_arg4 m ρ c)
theorem w2_v5 : W2 m ρ c (Proc.devRef .tc main_v5) = val_main_v5 (F := Ideal) (a5 m c) := (W2_of_ne m ρ c main_v5 (by decide)).trans (w1_v5 m ρ c)
theorem w2_v6 : W2 m ρ c (Proc.devRef .tc main_v6) = val_main_v6 (F := Ideal) (a5 m c) := (W2_of_ne m ρ c main_v6 (by decide)).trans (w1_v6 m ρ c)
theorem w2_v35 : W2 m ρ c (Proc.devRef .tc main_v35) = val_main_v35 (F := Ideal) (a1 m c) (a5 m c) := (W2_of_ne m ρ c main_v35 (by decide)).trans (w1_v35 m ρ c)

/-- The first kernel's result, cut into its two column halves, is the reference's two products. -/
theorem w2_v39 :
    extractStridedSlice S50000x128 ![0, 0] (W2 m ρ c (Proc.devRef .tc main_v39)) slices_S50000x256_S50000x128_0_0 = val_main_v38 (F := Ideal) (a0 m c) (a2 m c)
    ∧ extractStridedSlice S50000x128 ![0, 128] (W2 m ρ c (Proc.devRef .tc main_v39)) slices_S50000x256_S50000x128_0_128 = val_main_v39 (F := Ideal) (a0 m c) (a2 m c) := by
  have hw : W2 m ρ c (Proc.devRef .tc main_v39) = (dat0 (V1 m ρ) c).arrAt 2 cfg0.N := W2_arr m ρ c 2
  rw [hw]
  exact Region0.region0_value (V1 m ρ) c (a0 m c) (val_main_v36 (F := Ideal) (a2 m c)) (val_main_v37 (F := Ideal) (a2 m c)) (w1_arg0 m ρ c) (w1_v38 m ρ c)

/-! ## Between the first and the second kernel: the three gathers, padded to whole blocks -/

theorem w8_arg0 : W8 m ρ c (Proc.devRef .tc main_arg0) = (a0 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_arg0) = _
  after_results_simp; exact w2_arg0 m ρ c
theorem w8_arg3 : W8 m ρ c (Proc.devRef .tc main_arg3) = (a3 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_arg3) = _
  after_results_simp; exact w2_arg3 m ρ c
theorem w8_arg4 : W8 m ρ c (Proc.devRef .tc main_arg4) = (a4 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_arg4) = _
  after_results_simp; exact w2_arg4 m ρ c
theorem w8_v5 : W8 m ρ c (Proc.devRef .tc main_v5) = val_main_v5 (F := Ideal) (a5 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v5) = _
  after_results_simp; exact w2_v5 m ρ c
theorem w8_v6 : W8 m ρ c (Proc.devRef .tc main_v6) = val_main_v6 (F := Ideal) (a5 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v6) = _
  after_results_simp; exact w2_v6 m ρ c
theorem w8_v35 : W8 m ρ c (Proc.devRef .tc main_v35) = val_main_v35 (F := Ideal) (a1 m c) (a5 m c) := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v35) = _
  after_results_simp; exact w2_v35 m ρ c

theorem w8_v63 : W8 m ρ c (Proc.devRef .tc main_v63) =
    pad S851968x128 ![0, 0] ![1968, 0] ![0, 0] (val_main_v46 (F := Ideal) (a0 m c) (a2 m c) (a5 m c)) zpad pads_S850000x128_S851968x128_019680_000 h_S_ := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v63) = _
  after_results_simp
  rw [w2_v5 m ρ c, (w2_v39 m ρ c).1]
  rfl
theorem w8_v64 : W8 m ρ c (Proc.devRef .tc main_v64) =
    pad S851968x128 ![0, 0] ![1968, 0] ![0, 0] (val_main_v53 (F := Ideal) (a0 m c) (a2 m c) (a5 m c)) zpad pads_S850000x128_S851968x128_019680_000 h_S_ := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v64) = _
  after_results_simp
  rw [w2_v6 m ρ c, (w2_v39 m ρ c).2]
  rfl
theorem w8_v65 : W8 m ρ c (Proc.devRef .tc main_v65) =
    pad S851968x128 ![0, 0] ![1968, 0] ![0, 0] (val_main_v67 (F := Ideal) (a0 m c) (a5 m c)) zpad pads_S850000x128_S851968x128_019680_000 h_S_ := by
  show StableHlo.after hostOps1_5 (StableHlo.after hostOps1_4 (StableHlo.after hostOps1_3 (StableHlo.after hostOps1_2 (StableHlo.after hostOps1_1 (StableHlo.after hostOps1 (W2 m ρ c)))))) (Proc.devRef .tc main_v65) = _
  after_results_simp
  rw [w2_v6 m ρ c, w2_arg0 m ρ c]
  rfl

/-! ## Across the second kernel -/

theorem w9_arg0 : W9 m ρ c (Proc.devRef .tc main_arg0) = (a0 m c) := (W9_of_ne m ρ c main_arg0 (by decide)).trans (w8_arg0 m ρ c)
theorem w9_arg3 : W9 m ρ c (Proc.devRef .tc main_arg3) = (a3 m c) := (W9_of_ne m ρ c main_arg3 (by decide)).trans (w8_arg3 m ρ c)
theorem w9_arg4 : W9 m ρ c (Proc.devRef .tc main_arg4) = (a4 m c) := (W9_of_ne m ρ c main_arg4 (by decide)).trans (w8_arg4 m ρ c)
theorem w9_v5 : W9 m ρ c (Proc.devRef .tc main_v5) = val_main_v5 (F := Ideal) (a5 m c) := (W9_of_ne m ρ c main_v5 (by decide)).trans (w8_v5 m ρ c)
theorem w9_v6 : W9 m ρ c (Proc.devRef .tc main_v6) = val_main_v6 (F := Ideal) (a5 m c) := (W9_of_ne m ρ c main_v6 (by decide)).trans (w8_v6 m ρ c)
theorem w9_v35 : W9 m ρ c (Proc.devRef .tc main_v35) = val_main_v35 (F := Ideal) (a1 m c) (a5 m c) := (W9_of_ne m ρ c main_v35 (by decide)).trans (w8_v35 m ρ c)

/-- The second kernel's result, cut back to the true rows, is the reference's gated message. -/
theorem w9_v66 :
    extractStridedSlice S850000x128 ![0, 0] (W9 m ρ c (Proc.devRef .tc main_v66)) slices_S851968x128_S850000x128_0_0 = val_main_v68 (F := Ideal) (a0 m c) (a2 m c) (a5 m c) := by
  have hw : W9 m ρ c (Proc.devRef .tc main_v66) = (dat1 (V8 m ρ) c).arrAt 3 cfg1.N := W9_arr m ρ c 3
  rw [hw]
  exact Region1.region1_value (V8 m ρ) c (val_main_v46 (F := Ideal) (a0 m c) (a2 m c) (a5 m c)) (val_main_v53 (F := Ideal) (a0 m c) (a2 m c) (a5 m c)) (val_main_v67 (F := Ideal) (a0 m c) (a5 m c)) zpad
    (w8_v63 m ρ c) (w8_v64 m ρ c) (w8_v65 m ρ c)

end Cert.KernelIdeal.Bridge

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.Region2.lean ====
/-
  The third kernel: each gathered row scaled by its edge-slot's normalised weight, a weight column broadcast across the
  128 features, over 104 row blocks of 8192 edge-slots of arrays padded from 850000 to 851968 rows. The body is pointwise,
  every window moves with the grid point; on the true rows the padded operands read the unpadded arrays, so the true rows
  are the reference's broadcast product.
-/
import proofs.«121581_j16372415332361_1_alg».proof.Proof.Gen.KernelIdeal.Frame
import proofs.«121581_j16372415332361_1_alg».proof.Proof.Gen.ReferenceIdeal
import proofs.«121581_j16372415332361_1_alg».proof.Proof.LibColumn
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Idealize.ShloMosaic.ValueIdx
open Cert.KernelIdeal Cert.KernelIdeal.Gen

namespace Cert.KernelIdeal.Region2

variable (V : (c : Dev nD) → (b : Ref sig .tc) → Buf (Elt Ideal) ((c : Thread nD τ).loc b))

/-- The zero offset pair, as the constant function. -/
theorem zero_offsets : (![0, 0] : Fin 2 → Nat) = fun _ => 0 := funext fun a => by fin_cases a <;> rfl

/-- The array the region leaves: each row of the second array scaled by the first array's entry in that row. -/
abbrev rowScaled (a0 : S851968x1.Idx → EReal) (a1 : S851968x128.Idx → EReal) : S851968x128.Idx → EReal :=
  fun i => a0 (ix2 (i 0) (0 : Fin 1)) * a1 i

/-- The body's payload at an entry: the weight column's entry in that row times the block's entry. -/
theorem payload_apply (x0 : Vec Ideal S8192x1 .f32) (x1 : Vec Ideal S8192x128 .f32) (p : Fin 8192) (q : Fin 128) :
    k2_pay1 x0 x1 (ix2 p q) = x0 (ix2 p (0 : Fin 1)) * x1 (ix2 p q) := by
  unfold k2_pay1
  rw [mulf_apply, shapeCast_self, shapeCast_self, Cert.LibColumn.broadcastTo_a1_ab_apply]

/-- Products of equal factors are equal. -/
theorem mul_eq_mul_of_eq {a a' b b' : EReal} (ha : a = a') (hb : b = b') : a * b = a' * b' := by rw [ha, hb]

/-- The block index maps over the grid: every window is cut in blocks of rows, point `t` taking block `t`. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the row-scaled array. -/
theorem flushed_eq (c : Dev nD) (t : Fin cfg2.N) :
    (dat2 V c).flushed 2 t = ((cfg2.win 2).blk t).view.read (Elt Ideal) (rowScaled (V c main_v80) (V c main_v81)) := by
  show (cfg2.win 2).cut (grid2.coords t) ((dat2 V c).after 2 t) = _
  rw [after2_2]
  unfold out2_2
  rw [View.canon_unit_zero zero_offsets]
  simp only [View.ld_unit_zero (S := S8192x1) zero_offsets, View.ld_unit_zero (S := S8192x128) zero_offsets]
  obtain ⟨e0, e1, e2, e3, e4, e5⟩ := block_index t
  funext j
  obtain ⟨p, q, rfl⟩ : ∃ (p : Fin 8192) (q : Fin 128), j = ix2 p q := ⟨j 0, j 1, eq_ix2 j⟩
  show k2_pay1 (iblk2 V c 0 t) (iblk2 V c 1 t) (ix2 p q)
    = rowScaled (V c main_v80) (V c main_v81) (((cfg2.win 2).blk t).view.emb (ix2 p q))
  rw [payload_apply]
  have hp : p.val < 8192 := p.isLt
  have hq : q.val < 128 := q.isLt
  have h0 : ((cfg2.win 0).blk t).view.emb (ix2 p (0 : Fin 1)) = ix2 ((((cfg2.win 2).blk t).view.emb (ix2 p q)) 0) (0 : Fin 1) := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 1 + 1 * 0 = 0; omega
  have h1 : ((cfg2.win 1).blk t).view.emb (ix2 p q) = ((cfg2.win 2).blk t).view.emb (ix2 p q) := by
    funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 128 + 1 * q.val = win2_2.index t (1 : Fin 2) * 128 + 1 * q.val; omega
  refine mul_eq_mul_of_eq ?_ ?_
  · show (V c main_v80 : S851968x1.Idx → EReal) (((cfg2.win 0).blk t).view.emb (ix2 p (0 : Fin 1)))
      = (V c main_v80 : S851968x1.Idx → EReal) (ix2 ((((cfg2.win 2).blk t).view.emb (ix2 p q)) 0) (0 : Fin 1))
    exact congrArg (V c main_v80 : S851968x1.Idx → EReal) h0
  · show (V c main_v81 : S851968x128.Idx → EReal) (((cfg2.win 1).blk t).view.emb (ix2 p q))
      = (V c main_v81 : S851968x128.Idx → EReal) (((cfg2.win 2).blk t).view.emb (ix2 p q))
    exact congrArg (V c main_v81 : S851968x128.Idx → EReal) h1

/-- An index of the array is in point `t`'s block iff each coordinate is in the block's range on its axis. -/
theorem mem_block (t : Fin cfg2.N) (i : S851968x128.Idx) :
    i ∈ ((cfg2.win 2).blk t).view.set ↔ ∀ a : Fin 2, win2_2.index t a * S8192x128.size a ≤ (i a).val
      ∧ (i a).val < win2_2.index t a * S8192x128.size a + S8192x128.size a := by
  show i ∈ ((View.whole main_v82).slice (win2_2.rect t)).set ↔ _
  rw [View.set_slice_whole, Rect.mem_set_unit]
  exact Iff.rfl

/-- Every index is in the block of the point whose number is the row's quotient by the block height. -/
theorem covered (i : S851968x128.Idx) :
    ∃ t : Fin cfg2.N, (cfg2.win 2).flush t = true ∧ i ∈ ((cfg2.win 2).blk t).view.set := by
  have hi0 : (i 0).val < 851968 := (i 0).isLt
  have hi1 : (i 1).val < 128 := (i 1).isLt
  have hN : (i 0).val / 8192 < cfg2.N := by
    show (i 0).val / 8192 < grid2.N
    rw [N_2]; omega
  refine ⟨⟨(i 0).val / 8192, hN⟩, flush2_2 _, ?_⟩
  rw [mem_block]
  obtain ⟨-, -, -, -, e4, e5⟩ := block_index ⟨(i 0).val / 8192, hN⟩
  have e4' : win2_2.index ⟨(i 0).val / 8192, hN⟩ (0 : Fin 2) = (i 0).val / 8192 := e4
  intro a
  match a with
  | ⟨0, _⟩ =>
    show win2_2.index ⟨(i 0).val / 8192, hN⟩ (0 : Fin 2) * 8192 ≤ (i 0).val
      ∧ (i 0).val < win2_2.index ⟨(i 0).val / 8192, hN⟩ (0 : Fin 2) * 8192 + 8192
    omega
  | ⟨1, _⟩ =>
    show win2_2.index ⟨(i 0).val / 8192, hN⟩ (1 : Fin 2) * 128 ≤ (i 1).val
      ∧ (i 1).val < win2_2.index ⟨(i 0).val / 8192, hN⟩ (1 : Fin 2) * 128 + 128
    omega

/-- The array after the region: the row-scaled array of the two entry arrays. -/
theorem final_array (c : Dev nD) :
    (dat2 V c).arrAt 2 cfg2.N = rowScaled (V c main_v80) (V c main_v81) :=
  (dat2 V c).arrAt_eq_of_cover 2 (rowScaled (V c main_v80) (V c main_v81)) (fun t _ => flushed_eq V c t) covered

theorem region2_value (c : Dev nD) (e : FVec Ideal S850000x1 .f32) (y : FVec Ideal S850000x128 .f32) (z : FVec Ideal S_ .f32)
    (h80 : (V c main_v80 : S851968x1.Idx → EReal) = pad S851968x1 ![0, 0] ![1968, 0] ![0, 0] e z pads_S850000x1_S851968x1_019680_000 h_S_)
    (h81 : (V c main_v81 : S851968x128.Idx → EReal) = pad S851968x128 ![0, 0] ![1968, 0] ![0, 0] y z pads_S850000x128_S851968x128_019680_000 h_S_) :
    extractStridedSlice S850000x128 ![0, 0] ((dat2 V c).arrAt 2 cfg2.N) slices_S851968x128_S850000x128_0_0
      = mulf (broadcastInDim S850000x128 ![0, 1] Cert.ReferenceIdeal.Gen.bcast_S850000x1_S850000x128_0_1 e) y := by
  rw [final_array]
  funext i
  obtain ⟨p, q, rfl⟩ : ∃ (p : Fin 850000) (q : Fin 128), i = ix2 p q := ⟨i 0, i 1, eq_ix2 i⟩
  have hp : p.val < 850000 := p.isLt
  rw [slice2_axis0_eq 0, mulf_apply, h80, h81]
  refine mul_eq_mul_of_eq ?_ ?_
  · -- the padded column inside the operand, and the reference's broadcast, both read the column at row `p`
    refine (pad_apply_of_inside _ _ _ e z _ h_S_ _ (ix2 p (0 : Fin 1)) fun a => ?_).trans
      (broadcastInDim_apply _ _ e (ix2 p q) (ix2 p (0 : Fin 1)) fun a => ?_).symm
    · match a with
      | ⟨0, _⟩ => show 0 + p.val = 0 + p.val * (0 + 1); omega
      | ⟨1, _⟩ => show (0 : ℕ) = 0 + 0 * (0 + 1); rfl
    · match a with
      | ⟨0, _⟩ => exact (if_neg (by decide : ¬ (850000 : ℕ) = 1)).symm
      | ⟨1, _⟩ => rfl
  · -- the padded array inside the operand reads the operand
    refine pad_apply_of_inside _ _ _ y z _ h_S_ _ (ix2 p q) fun a => ?_
    match a with
    | ⟨0, _⟩ => show 0 + p.val = 0 + p.val * (0 + 1); omega
    | ⟨1, _⟩ => show q.val = 0 + q.val * (0 + 1); omega

end Cert.KernelIdeal.Region2

end
-- ==== Proof.Region3.lean ====
/-
  The fourth kernel: the layer's last affine map and relu, max(u · w + b, 0), over ten row blocks of 5000 nodes; the
  weight and the bias stay at their one block. Over the extended reals the block product into a zero accumulator is the
  plain sum over the 128 contracted positions, so the ten blocks fill the result with the reference's
  max(dot(u, w) + b spread over the rows, 0), entry by entry.
-/
import proofs.«121581_j16372415332361_1_alg».proof.Proof.Gen.KernelIdeal.Frame
import proofs.«121581_j16372415332361_1_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

open Idealize.ShloMosaic Idealize.ShloMosaic.TcCoe Idealize.SL.Sem
open Idealize.ShloMosaic.Pipeline (Dat Cfg Window)
open Cert.KernelIdeal Cert.KernelIdeal.Gen

namespace Cert.KernelIdeal.Region3

variable (V : (c : Dev nD) → (b : Ref sig .tc) → Buf (Elt Ideal) ((c : Thread nD τ).loc b))

open Idealize.ShloMosaic.ValueIdx

/-- One output of the layer: the row of `x` against column `q` of the weight, plus the bias at `q`, clipped below at zero. -/
def layer {n : Nat} (x : (⟨2, ![n, 128]⟩ : Shape).Idx → EReal) (w : S128x128.Idx → EReal) (b : S128.Idx → EReal)
    (p : Fin n) (q : Fin 128) : EReal :=
  max ((∑ k : Fin 128, x (ix2 p k) * w (ix2 k q)) + b (ix1 q)) (Ideal.ofBits .f32 0x00000000#32)

/-! ## The contraction's operand indices, block-sized -/

theorem lhsK_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsK_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsK_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsK_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into zero, at row `p` and column `q`, is the sum over the 128 contracted positions. -/
theorem blockProduct_apply (x0 : FVec Ideal S5000x128 .bf16) (x1 : FVec Ideal S128x128 .bf16) (p : Fin 5000) (q : Fin 128) :
    matmul dot_S5000x128_S128x128_S5000x128_1_0_0_1_n_n none x0 x1 (constant S5000x128 .f32 0x00000000#32) (ix2 p q)
      = ∑ k : Fin 128, x0 (ix2 p k) * x1 (ix2 k q) := by
  show FloatOps.matmul _ _ _ _ _ _ = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhsK_0 _ _
    | ⟨1, _⟩ => exact (lhsK_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

/-- What the body stores, at row `p` and column `q` of the block. -/
theorem payload_apply (x0 : Vec Ideal S5000x128 .f32) (x1 : Vec Ideal S128x128 .f32) (x2 : Vec Ideal S128 .f32) (p : Fin 5000) (q : Fin 128) :
    k3_pay1 x0 x1 x2 (ix2 p q) = layer x0 x1 x2 p q := by
  unfold k3_pay1 layer
  simp only [shapeCast_self]
  rw [maximumf_apply, addf_apply, broadcast_apply, broadcastTo_1b_ab_apply, shapeCast_a_1a_apply, blockProduct_apply]
  rfl

/-! ## The reference's spelling, read at an index -/

theorem lhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsR_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsR_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The reference's product of the whole arrays, at row `p` and column `q`, is the same sum. -/
theorem wholeProduct_apply (u : FVec Ideal S50000x128 .f32) (w : FVec Ideal S128x128 .f32) (p : Fin 50000) (q : Fin 128) :
    Host.dotGeneral Cert.ReferenceIdeal.dot_S50000x128_S128x128_S50000x128_1_0_0_1_n_n none u w (ix2 p q)
      = ∑ k : Fin 128, u (ix2 p k) * w (ix2 k q) := by
  show FloatOps.dotGeneral _ _ _ _ _ _ = _
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((ValueIdx.contrEquiv1 Cert.ReferenceIdeal.dot_S50000x128_S128x128_S50000x128_1_0_0_1_n_n 128 rfl rfl).symm k) = ix2 p k := funext fun a => Fin.ext (by
    match a with
    | ⟨0, _⟩ => exact lhsR_0 _ _
    | ⟨1, _⟩ => exact (lhsR_1 _ _).trans hk)
  have er : Cert.ReferenceIdeal.dot_S50000x128_S128x128_S50000x128_1_0_0_1_n_n.rhsIdx (ix2 p q) ((ValueIdx.contrEquiv1 Cert.ReferenceIdeal.dot_S50000x128_S128x128_S50000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-- The reference's bias, spread over the rows, at row `p` and column `q` is the bias at `q`. -/
theorem biasRows_apply (b : FVec Ideal S128 .f32) (p : Fin 50000) (q : Fin 128) :
    broadcastInDim S50000x128 ![0, 1] Cert.ReferenceIdeal.Gen.bcast_S1x128_S50000x128_0_1
      (broadcastInDim S1x128 ![1] Cert.ReferenceIdeal.Gen.bcast_S128_S1x128_1 b) (ix2 p q) = b (ix1 q) := by
  rw [broadcastInDim_apply _ Cert.ReferenceIdeal.Gen.bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ Cert.ReferenceIdeal.Gen.bcast_S128_S1x128_1 b (ix2 (0 : Fin 1) q) (ix1 q) (fun a => match a with
    | ⟨0, _⟩ => by show q.val = if (128 : Nat) = 1 then 0 else q.val; rw [if_neg (by decide)])

/-- The reference's zero, spread over the array, is zero at every index. -/
theorem zeroSplat_apply (i : S50000x128.Idx) :
    broadcastInDim S50000x128 ![] Cert.ReferenceIdeal.Gen.bcast_S_S50000x128 (constant (F := Ideal) S_ .f32 0x00000000#32) i
      = Ideal.ofBits .f32 0x00000000#32 :=
  broadcastInDim_apply _ Cert.ReferenceIdeal.Gen.bcast_S_S50000x128 (constant (F := Ideal) S_ .f32 0x00000000#32) i ix0 (fun a => a.elim0)

/-- The reference's layer at row `p` and column `q`. -/
theorem reference_apply (u : FVec Ideal S50000x128 .f32) (w : FVec Ideal S128x128 .f32) (b : FVec Ideal S128 .f32) (p : Fin 50000) (q : Fin 128) :
    maximumf (addf (Host.dotGeneral Cert.ReferenceIdeal.dot_S50000x128_S128x128_S50000x128_1_0_0_1_n_n none u w)
            (broadcastInDim S50000x128 ![0, 1] Cert.ReferenceIdeal.Gen.bcast_S1x128_S50000x128_0_1
              (broadcastInDim S1x128 ![1] Cert.ReferenceIdeal.Gen.bcast_S128_S1x128_1 b)))
          (broadcastInDim S50000x128 ![] Cert.ReferenceIdeal.Gen.bcast_S_S50000x128 (constant (F := Ideal) S_ .f32 0x00000000#32)) (ix2 p q)
      = layer u w b p q := by
  rw [maximumf_apply, addf_apply, wholeProduct_apply, biasRows_apply, zeroSplat_apply]
  rfl

/-! ## The blocks, and the array they fill -/

theorem zeros2 : (![0, 0] : Fin 2 → Nat) = fun _ => 0 := funext fun a => by fin_cases a <;> rfl
theorem zeros1 : (![0] : Fin 1 → Nat) = fun _ => 0 := funext fun a => by fin_cases a; rfl

/-- The windows' index maps over the ten grid points: the row-blocked windows sit at block row `t`, block column 0; the
    weight and the bias at block 0 throughout. -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

theorem point_lt (t : Fin cfg3.N) : t.val < 10 := lt_of_lt_of_eq t.isLt N_3

/-- Row `p`, column `k` of the input block at point `t` is row `t * 5000 + p`, column `k` of the input array. -/
theorem inputBlock_apply (c : Dev nD) (t : Fin cfg3.N) (p : Fin 5000) (k : Fin 128) (hr : t.val * 5000 + p.val < 50000) :
    iblk3 V c 0 t (ix2 p k) = (V c main_v86 : S50000x128.Idx → EReal) (ix2 ⟨t.val * 5000 + p.val, hr⟩ k) := by
  show (V c main_v86 : S50000x128.Idx → EReal) (((cfg3.win 0).blk t).view.emb (ix2 p k)) = _
  refine congrArg (V c main_v86 : S50000x128.Idx → EReal) ?_
  obtain ⟨e0, e1, -⟩ := index_facts t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- The weight's block at every point is the weight. -/
theorem weightBlock_apply (c : Dev nD) (t : Fin cfg3.N) (k : Fin 128) (q : Fin 128) :
    iblk3 V c 1 t (ix2 k q) = (V c main_v87 : S128x128.Idx → EReal) (ix2 k q) := by
  show (V c main_v87 : S128x128.Idx → EReal) (((cfg3.win 1).blk t).view.emb (ix2 k q)) = _
  refine congrArg (V c main_v87 : S128x128.Idx → EReal) ?_
  obtain ⟨-, -, e0, e1, -⟩ := index_facts t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- The bias's block at every point is the bias. -/
theorem biasBlock_apply (c : Dev nD) (t : Fin cfg3.N) (q : Fin 128) :
    iblk3 V c 2 t (ix1 q) = (V c main_arg4 : S128.Idx → EReal) (ix1 q) := by
  show (V c main_arg4 : S128.Idx → EReal) (((cfg3.win 2).blk t).view.emb (ix1 q)) = _
  refine congrArg (V c main_arg4 : S128.Idx → EReal) ?_
  obtain ⟨-, -, -, -, e0, -⟩ := index_facts t
  funext a; apply Fin.ext
  match a with
  | ⟨0, _⟩ => show win3_2.index t (0 : Fin 1) * 128 + 1 * q.val = q.val; omega

/-- Row `p`, column `q` of the output block at point `t` lands at row `t * 5000 + p`, column `q` of the output array. -/
theorem outputBlock_emb (t : Fin cfg3.N) (p : Fin 5000) (q : Fin 128) (hr : t.val * 5000 + p.val < 50000) :
    ((cfg3.win 3).blk t).view.emb (ix2 p q) = (ix2 ⟨t.val * 5000 + p.val, hr⟩ q : S50000x128.Idx) := by
  obtain ⟨-, -, -, -, -, e0, e1⟩ := index_facts t
  funext a; apply Fin.ext
  match a with
  | ⟨0, _⟩ => show win3_3.index t (0 : Fin 2) * 5000 + 1 * p.val = t.val * 5000 + p.val; omega
  | ⟨1, _⟩ => show win3_3.index t (1 : Fin 2) * 128 + 1 * q.val = q.val; omega

/-- The layer over the whole arrays, index by index. -/
def layerArray (u : S50000x128.Idx → EReal) (w : S128x128.Idx → EReal) (b : S128.Idx → EReal) : S50000x128.Idx → EReal :=
  fun i => layer u w b (i 0) (i 1)

theorem layerArray_apply (u : S50000x128.Idx → EReal) (w : S128x128.Idx → EReal) (b : S128.Idx → EReal) (p : Fin 50000) (q : Fin 128) :
    layerArray u w b (ix2 p q) = layer u w b p q := rfl

/-- What point `t` writes back is block `t` of the layer over the arrays as the region finds them. -/
theorem flushed_eq (c : Dev nD) (t : Fin cfg3.N) :
    (dat3 V c).flushed 3 t = ((cfg3.win 3).blk t).view.read (Elt Ideal) (layerArray (V c main_v86) (V c main_v87) (V c main_arg4)) := by
  show (cfg3.win 3).cut (grid3.coords t) ((dat3 V c).after 3 t) = _
  rw [after3_3]
  unfold out3_3
  rw [View.canon_unit_zero zeros2]
  simp only [View.ld_unit_zero (S := S5000x128) zeros2, View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht := point_lt t
  have hr : t.val * 5000 + p.val < 50000 := by have := p.isLt; omega
  show k3_pay1 (iblk3 V c 0 t) (iblk3 V c 1 t) (iblk3 V c 2 t) (ix2 p q)
    = layerArray (V c main_v86) (V c main_v87) (V c main_arg4) (((cfg3.win 3).blk t).view.emb (ix2 p q))
  rw [payload_apply, outputBlock_emb t p q hr, layerArray_apply]
  unfold layer
  simp only [inputBlock_apply V c t p _ hr, weightBlock_apply V c t, biasBlock_apply V c t]

/-- An index of the output array is in point `t`'s block iff each coordinate is in the block's range on its axis. -/
theorem mem_blk (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v88).slice (win3_3.rect t)).set ↔ _
  rw [View.set_slice_whole, Rect.mem_set_unit]
  exact Iff.rfl

/-- Every index of the output array is in the block of the point its row falls to. -/
theorem cover (i : S50000x128.Idx) : ∃ t : Fin cfg3.N, (cfg3.win 3).flush t = true ∧ i ∈ ((cfg3.win 3).blk t).view.set := by
  have hi0 : (i 0).val < 50000 := idx2_lt0 i
  have hi1 : (i 1).val < 128 := idx2_lt1 i
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, -, e0, e1⟩ := index_facts t
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the run is the layer over the arrays as the region finds them. -/
theorem final (c : Dev nD) :
    (dat3 V c).arrAt 3 cfg3.N = layerArray (V c main_v86) (V c main_v87) (V c main_arg4) :=
  (dat3 V c).arrAt_eq_of_cover 3 (layerArray (V c main_v86) (V c main_v87) (V c main_arg4)) (fun t _ => flushed_eq V c t) cover

theorem region3_value (c : Dev nD) (u : FVec Ideal S50000x128 .f32) (w : FVec Ideal S128x128 .f32) (b : FVec Ideal S128 .f32)
    (h86 : (V c main_v86 : S50000x128.Idx → EReal) = u) (h87 : (V c main_v87 : S128x128.Idx → EReal) = w)
    (h4 : (V c main_arg4 : S128.Idx → EReal) = b) :
    ((dat3 V c).arrAt 3 cfg3.N : S50000x128.Idx → EReal)
      = maximumf (addf (Host.dotGeneral Cert.ReferenceIdeal.dot_S50000x128_S128x128_S50000x128_1_0_0_1_n_n none u w)
            (broadcastInDim S50000x128 ![0, 1] Cert.ReferenceIdeal.Gen.bcast_S1x128_S50000x128_0_1
              (broadcastInDim S1x128 ![1] Cert.ReferenceIdeal.Gen.bcast_S128_S1x128_1 b)))
          (broadcastInDim S50000x128 ![] Cert.ReferenceIdeal.Gen.bcast_S_S50000x128 (constant (F := Ideal) S_ .f32 0x00000000#32)) := by
  refine (final V c).trans ?_
  subst h86 h87 h4
  funext i
  obtain ⟨p, q, rfl⟩ : ∃ (p : Fin 50000) (q : Fin 128), i = ix2 p q := ⟨i 0, i 1, eq_ix2 i⟩
  exact (reference_apply _ _ _ p q).symm

end Cert.KernelIdeal.Region3

end
-- ==== Proof.BoundaryB.lean ====
/-
  The kernel program's buffers, read at the boundaries of its last two kernels, at the extended reals: the first
  scatter-add over the sources and the gather of the updated features, the weight column, both padded to whole blocks;
  the weighted message as the true rows of the third kernel's result; the second scatter-add over the destinations and
  the transposed weight; and the last kernel's block rows, which are the reference's last stage of the same arguments.
-/
import proofs.«121581_j16372415332361_1_alg».proof.Proof.Gen.KernelIdeal.Frame
import proofs.«121581_j16372415332361_1_alg».proof.Proof.Gen.ReferenceIdeal.Read
import proofs.«121581_j16372415332361_1_alg».proof.Proof.BoundaryA
import proofs.«121581_j16372415332361_1_alg».proof.Proof.Region2
import proofs.«121581_j16372415332361_1_alg».proof.Proof.Region3
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo
open Idealize.ShloMosaic.Pipeline (Dat Cfg Window)
open Cert.KernelIdeal Cert.KernelIdeal.Gen

namespace Cert.KernelIdeal.Bridge
open Cert.ReferenceIdeal.Read

variable (m : (ℓ : Loc nD τ sig) → Buf (Elt Ideal) ℓ) (ρ : Dev nD → PrngReg) (c : Dev nD)

/-! An outlined function's operations carry their operands and result through a change of type along an equation that
    holds by computation; at these literal buffers the change is the identity (each side is the other by unfolding). -/

theorem pad80_cast (p1 p2 p3 q1 q2 q3) (e : S850000x1.Idx → EReal) (z : S_.Idx → EReal) :
    (TRef.of (sig := sig) (T := ⟨S851968x1, .f32⟩) main_v80 p1 p2 p3).toBuf (Val := Elt Ideal)
      (pad S851968x1 ![0, 0] ![1968, 0] ![0, 0] ((TRef.of (sig := sig) (T := ⟨S850000x1, .f32⟩) main_v79 q1 q2 q3).ofBuf (Val := Elt Ideal) e) z pads_S850000x1_S851968x1_019680_000 h_S_)
    = pad S851968x1 ![0, 0] ![1968, 0] ![0, 0] e z pads_S850000x1_S851968x1_019680_000 h_S_ := rfl
theorem zpad_cast3 (p1 p2 p3 q1 q2 q3 r1 r2 r3) :
    (TRef.of (sig := sig) (T := ⟨S_, .f32⟩) main_call3_v0 p1 p2 p3).ofBuf (Val := Elt Ideal) ((TRef.of (sig := sig) (T := ⟨S_, .f32⟩) main_call3_v0 q1 q2 q3).toBuf (Val := Elt Ideal)
      (sitofp (F := Ideal) .f32 ((TRef.of (sig := sig) (T := ⟨S_, .i32⟩) main_c_19 r1 r2 r3).ofBuf (Val := Elt Ideal) (constantI S_ 32 0#32)))) = zpad := rfl

/-! ## Between the second and the third kernel: the first scatter-add, the gather of the new features, the weight column -/

theorem w13_arg3 : W13 m ρ c (Proc.devRef .tc main_arg3) = (a3 m c) := by
  show StableHlo.after hostOps2_3 (StableHlo.after hostOps2_2 (StableHlo.after hostOps2_1 (StableHlo.after hostOps2 (W9 m ρ c)))) (Proc.devRef .tc main_arg3) = _
  after_results_simp; exact w9_arg3 m ρ c
theorem w13_arg4 : W13 m ρ c (Proc.devRef .tc main_arg4) = (a4 m c) := by
  show StableHlo.after hostOps2_3 (StableHlo.after hostOps2_2 (StableHlo.after hostOps2_1 (StableHlo.after hostOps2 (W9 m ρ c)))) (Proc.devRef .tc main_arg4) = _
  after_results_simp; exact w9_arg4 m ρ c
theorem w13_v6 : W13 m ρ c (Proc.devRef .tc main_v6) = val_main_v6 (F := Ideal) (a5 m c) := by
  show StableHlo.after hostOps2_3 (StableHlo.after hostOps2_2 (StableHlo.after hostOps2_1 (StableHlo.after hostOps2 (W9 m ρ c)))) (Proc.devRef .tc main_v6) = _
  after_results_simp; exact w9_v6 m ρ c

theorem w13_v80 : W13 m ρ c (Proc.devRef .tc main_v80) =
    pad S851968x1 ![0, 0] ![1968, 0] ![0, 0] (val_main_v73 (F := Ideal) (a1 m c) (a5 m c)) zpad pads_S850000x1_S851968x1_019680_000 h_S_ := by
  show StableHlo.after hostOps2_3 (StableHlo.after hostOps2_2 (StableHlo.after hostOps2_1 (StableHlo.after hostOps2 (W9 m ρ c)))) (Proc.devRef .tc main_v80) = _
  after_results_simp
  rw [w9_v35 m ρ c]
  refine (pad80_cast _ _ _ _ _ _ _ _).trans ?_
  rw [zpad_cast3]
  rfl
theorem w13_v81 : W13 m ρ c (Proc.devRef .tc main_v81) =
    pad S851968x128 ![0, 0] ![1968, 0] ![0, 0] (val_main_v80 (F := Ideal) (a0 m c) (a2 m c) (a5 m c)) zpad pads_S850000x128_S851968x128_019680_000 h_S_ := by
  show StableHlo.after hostOps2_3 (StableHlo.after hostOps2_2 (StableHlo.after hostOps2_1 (StableHlo.after hostOps2 (W9 m ρ c)))) (Proc.devRef .tc main_v81) = _
  after_results_simp
  rw [w9_v5 m ρ c, w9_arg0 m ρ c, w9_v66 m ρ c]
  rfl

/-! ## Across the third kernel -/

theorem w14_arg3 : W14 m ρ c (Proc.devRef .tc main_arg3) = (a3 m c) := (W14_of_ne m ρ c main_arg3 (by decide)).trans (w13_arg3 m ρ c)
theorem w14_arg4 : W14 m ρ c (Proc.devRef .tc main_arg4) = (a4 m c) := (W14_of_ne m ρ c main_arg4 (by decide)).trans (w13_arg4 m ρ c)
theorem w14_v6 : W14 m ρ c (Proc.devRef .tc main_v6) = val_main_v6 (F := Ideal) (a5 m c) := (W14_of_ne m ρ c main_v6 (by decide)).trans (w13_v6 m ρ c)

/-- The third kernel's result, cut back to the true rows, is the reference's weighted message. -/
theorem w14_v82 :
    extractStridedSlice S850000x128 ![0, 0] (W14 m ρ c (Proc.devRef .tc main_v82)) slices_S851968x128_S850000x128_0_0 = val_main_v82 (F := Ideal) (a0 m c) (a1 m c) (a2 m c) (a5 m c) := by
  have hw : W14 m ρ c (Proc.devRef .tc main_v82) = (dat2 (V13 m ρ) c).arrAt 2 cfg2.N := W14_arr m ρ c 2
  rw [hw]
  exact Region2.region2_value (V13 m ρ) c (val_main_v73 (F := Ideal) (a1 m c) (a5 m c)) (val_main_v80 (F := Ideal) (a0 m c) (a2 m c) (a5 m c)) zpad (w13_v80 m ρ c) (w13_v81 m ρ c)

/-! ## Between the third and the fourth kernel: the second scatter-add and the transposed weight -/

theorem w15_arg4 : W15 m ρ c (Proc.devRef .tc main_arg4) = (a4 m c) := by
  show StableHlo.after hostOps3 (W14 m ρ c) (Proc.devRef .tc main_arg4) = _
  after_results_simp; exact w14_arg4 m ρ c
theorem w15_v86 : W15 m ρ c (Proc.devRef .tc main_v86) = val_main_v85 (F := Ideal) (a0 m c) (a1 m c) (a2 m c) (a5 m c) := by
  show StableHlo.after hostOps3 (W14 m ρ c) (Proc.devRef .tc main_v86) = _
  after_results_simp
  rw [w14_v6 m ρ c, w14_v82 m ρ c]
  rfl
theorem w15_v87 : W15 m ρ c (Proc.devRef .tc main_v87) = val_main_v86 (F := Ideal) (a3 m c) := by
  show StableHlo.after hostOps3 (W14 m ρ c) (Proc.devRef .tc main_v87) = _
  after_results_simp
  rw [w14_arg3 m ρ c]
  rfl

/-! ## The fourth kernel: the result -/

/-- The program's result buffer ends at the reference's last stage of the same arguments. -/
theorem w16_v88 : W16 m ρ c (Proc.devRef .tc main_v88) = val_main_v91 (F := Ideal) (a0 m c) (a1 m c) (a2 m c) (a3 m c) (a4 m c) (a5 m c) := by
  have hw : W16 m ρ c (Proc.devRef .tc main_v88) = (dat3 (V15 m ρ) c).arrAt 3 cfg3.N := W16_arr m ρ c 3
  rw [hw]
  exact Region3.region3_value (V15 m ρ) c (val_main_v85 (F := Ideal) (a0 m c) (a1 m c) (a2 m c) (a5 m c)) (val_main_v86 (F := Ideal) (a3 m c)) (a4 m c) (w15_v86 m ρ c) (w15_v87 m ρ c) (w15_arg4 m ρ c)

end Cert.KernelIdeal.Bridge

end
-- ==== Proof.RefSide.lean ====
/-
  The reference program has no kernel: its frame is its run, read back one operation after the other, with the
  result dropped.
-/
import proofs.«121581_j16372415332361_1_alg».proof.Defs
import proofs.«121581_j16372415332361_1_alg».proof.Proof.Gen.ReferenceIdeal.Run
import proofs.«121581_j16372415332361_1_alg».proof.Proof.Gen.ReferenceIdeal.Read
import proofs.«121581_j16372415332361_1_alg».proof.Proof.Gen.Pre_finite_inputs

noncomputable section

namespace Cert.Proof.RefSide

open Idealize.ShloMosaic Idealize.SL.Sem

/-- Every weakly fair execution of the reference terminates without a fault and leaves its arguments as launched. -/
theorem frame_ref : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.lean ====
/-
  The graph layer computes, for node features x, edge weights and an edge list:
    the symmetric-normalised edge weights (self loops added), a sigmoid gate per edge-slot from two projections of x,
    x_new = x + (scatter-add over sources of gate · x[dst]), update = scatter-add over destinations of weight · x_new[src],
    and relu(update · w_linᵀ + b).
  The kernel program does the two projections as ONE product with the joined weight matrix and cuts the result in two
  column halves, and does the gate, the weighting and the last affine map + relu in row-blocked kernels over arrays padded
  to whole blocks; everything else (gathers, scatter-adds, the normalisation) is the same host computation in both programs.
  Over the extended reals, where a change of float format is the identity and a matrix product is a plain sum:
    * a column half of x · [wa | wb] is x · wa, resp. x · wb (the same sum, term by term);
    * rows below the padding of sigmoid(a + b) · d computed on padded arrays are sigmoid(a + b) · d, and the kernel's
      sigmoid is the reference's 1 / (1 + exp(−s));
    * likewise for the weight column times the gathered rows;
    * the last kernel's block rows are max(u · wᵀ + b, 0) row by row.
  Each of these four facts is proved for the kernel's region at ANY entry contents; the host operations between the regions
  are read back one stretch at a time and land, stage by stage, on the reference's own stages, so the result buffers of the
  two programs hold one function of the arguments. No law that needs finiteness is used.
-/
import proofs.«121581_j16372415332361_1_alg».proof.Defs
import proofs.«121581_j16372415332361_1_alg».proof.Proof.Gen.Kernel
import proofs.«121581_j16372415332361_1_alg».proof.Proof.Gen.Kernel.Skeleton
import proofs.«121581_j16372415332361_1_alg».proof.Proof.Gen.Kernel.Launch
import proofs.«121581_j16372415332361_1_alg».proof.Proof.Gen.Kernel.Points
import proofs.«121581_j16372415332361_1_alg».proof.Proof.Gen.Kernel.Frame
import proofs.«121581_j16372415332361_1_alg».proof.Proof.Gen.KernelIdeal
import proofs.«121581_j16372415332361_1_alg».proof.Proof.Gen.KernelIdeal.Skeleton
import proofs.«121581_j16372415332361_1_alg».proof.Proof.Gen.KernelIdeal.Launch
import proofs.«121581_j16372415332361_1_alg».proof.Proof.Gen.KernelIdeal.Points
import proofs.«121581_j16372415332361_1_alg».proof.Proof.Gen.KernelIdeal.Frame
import proofs.«121581_j16372415332361_1_alg».proof.Proof.Gen.ReferenceIdeal
import proofs.«121581_j16372415332361_1_alg».proof.Proof.Gen.ReferenceIdeal.Run
import proofs.«121581_j16372415332361_1_alg».proof.Proof.Gen.ReferenceIdeal.Read
import proofs.«121581_j16372415332361_1_alg».proof.Proof.Gen.Pre_finite_inputs
import proofs.«121581_j16372415332361_1_alg».proof.Proof.KernelRun
import proofs.«121581_j16372415332361_1_alg».proof.Proof.BoundaryA
import proofs.«121581_j16372415332361_1_alg».proof.Proof.BoundaryB
import proofs.«121581_j16372415332361_1_alg».proof.Proof.RefSide
import Idealize.ShloMosaic.Adequacy
import Idealize.ShloMosaic.Init

noncomputable section

namespace Cert.Proof

open Idealize.ShloMosaic Idealize.SL.Sem

/-- From memories that agree on the arguments both programs run, and both result buffers end at the reference's last
    stage of those arguments: the kernel program's by the stage-by-stage reading of its run, the reference's by its own. -/
theorem algebraic : Cert.algebraic_KernelIdeal_ReferenceIdeal := by
  intro m ρ m' ρ' _ hagree
  refine ⟨fun c => Cert.ReferenceIdeal.Read.val_main_v91 (F := Ideal) (Cert.KernelIdeal.Bridge.a0 m c) (Cert.KernelIdeal.Bridge.a1 m c)
    (Cert.KernelIdeal.Bridge.a2 m c) (Cert.KernelIdeal.Bridge.a3 m c) (Cert.KernelIdeal.Bridge.a4 m c) (Cert.KernelIdeal.Bridge.a5 m c), ?_, ?_⟩
  · exact (θ_run Cert.KernelIdeal.defs _ _).mono
      (fun r h c => ⟨(h c).1.trans (Cert.KernelIdeal.Bridge.w16_v88 m ρ c), (h c).2⟩)
      (Cert.KernelIdeal.RunOut.run_out (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v91_eq, e0, e1, e2, e3, e4, e5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.RefSide.frame_ref,
  trivial,
  algebraic⟩

end Cert.Proof

end
